-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S10000x128 .f32) (main_arg1 : FVec F S10000x10000 .f32) (main_arg2 : FVec F S128x128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  main_v13
-- ==== Kernel.lean ====
abbrev S10000x128 : Shape := ⟨2, ![10000, 128]⟩
abbrev S10000x10000 : Shape := ⟨2, ![10000, 10000]⟩
abbrev S128x128 : Shape := ⟨2, ![128, 128]⟩
abbrev S400x10000 : Shape := ⟨2, ![400, 10000]⟩
abbrev S400x128 : Shape := ⟨2, ![400, 128]⟩

abbrev nBuf : Space → Nat
  | .hbm => 4
  | .vmem => 7
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S10000x128, .f32⟩
  | .local _ .vmem, ⟨0, _⟩ => ⟨S10000x128, .f32⟩
  | .local _ .vmem, ⟨1, _⟩ => ⟨S128x128, .f32⟩
  | .local _ .vmem, ⟨2, _⟩ => ⟨S400x10000, .f32⟩
  | .local _ .vmem, ⟨3, _⟩ => ⟨S400x10000, .f32⟩
  | .local _ .vmem, ⟨4, _⟩ => ⟨S400x128, .f32⟩
  | .local _ .vmem, ⟨5, _⟩ => ⟨S400x128, .f32⟩
  | .local _ .vmem, ⟨6, _⟩ => ⟨S10000x128, .bf16⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S400x10000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S400x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  bitsLt_bf16_f32 : FTy.bits .bf16 < FTy.bits .f32
  shapeCasts_S10000x128_S10000x128 : S10000x128.ShapeCasts S10000x128
  packedbf16_S10000x128_S10000x128_0_0 : (Rect.unit (s := S10000x128) ![0, 0] S10000x128.size inb_S10000x128_S10000x128_0_0).PackedRows (EltTy.packing .bf16)
  inb_S400x10000_S400x10000_0_0 : ∀ a, (![0, 0] : Fin 2 → Nat) a + S400x10000.size a ≤ S400x10000.size a
  h_S400x10000 : 0 < S400x10000.numel
  inb_S400x128_S400x128_0_0 : ∀ a, (![0, 0] : Fin 2 → Nat) a + S400x128.size a ≤ S400x128.size a
  h_S400x128 : 0 < S400x128.numel
  dot_S10000x128_S128x128_S10000x128_1_0_0_1_n_n_wf : DotDims.WF S10000x128 S128x128 S10000x128 [1] [0] [0] [1] [] []
  dot_S400x10000_S10000x128_S400x128_1_0_0_1_n_n_wf : DotDims.WF S400x10000 S10000x128 S400x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S400x10000.size a ≤ S10000x10000.size a
  hwx0_2 : ∀ i : grid0.Coords, EltTy.bits .f32 = 32 ∨ (Rect.block (s := S10000x10000) S400x10000.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S400x128.size a ≤ S10000x128.size a
  hwx0_3 : ∀ i : grid0.Coords, EltTy.bits .f32 = 32 ∨ (Rect.block (s := S10000x128) S400x128.size (cc0_transform_3 i) (hinb0_3 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S400x10000.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S400x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S10000x128, .f32⟩
  | .hbm, ⟨4, _⟩ => ⟨S10000x128, .f32⟩
  | .hbm, ⟨5, _⟩ => ⟨S_, .f32⟩
  | .hbm, ⟨6, _⟩ => ⟨S10000x128, .f32⟩
  | .hbm, ⟨7, _⟩ => ⟨S10000x128, .i1⟩
  | .hbm, ⟨8, _⟩ => ⟨S_, .f32⟩
  | .hbm, ⟨9, _⟩ => ⟨S10000x128, .f32⟩
  | .hbm, ⟨10, _⟩ => ⟨S10000x128, .f32⟩
  | .hbm, ⟨11, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]

class Facts₀ : Prop where
  bcast_S_S10000x128 : S_.BroadcastsInDim S10000x128 (![] : Fin 0 → Fin S10000x128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.BodyPieces.lean ====
/-
  What one run of the kernel body leaves behind, as values of what it loaded.

  The body has two cases. At the grid's first point it first fills the scratch with the support computed from the
  feature block `x0` and the weight block `x1`, then reads the scratch back and stores the output block computed
  from the adjacency rows `x2` and that support. At every later point it stores the output block computed from the
  adjacency rows and whatever the scratch held on entry (`xs`), and leaves the scratch alone. Every load and store
  goes through a whole buffer, so each buffer ends holding exactly the stored value.
-/
import proofs.«148690_g75763223102025_cont_9to1_m_1222_5_alg».proof.Proof.Gen.KernelIdeal.Frame
import Idealize.ShloMosaic.Lib.Pipeline.Value
import Idealize.ShloMosaic.Lib.Tactic

noncomputable section

namespace Cert.GraphLayer

open Idealize.ShloMosaic Idealize.ShloMosaic.TcCoe Idealize.SL.Sem Cert.KernelIdeal Cert.KernelIdeal.Gen

variable {F : FTy → Type} [FloatOps F]

/-- The offsets of a whole-buffer access are all zero. -/
theorem offsets_zero : (![0, 0] : Fin 2 → Nat) = fun _ => 0 := funext fun a => by fin_cases a <;> rfl

/-- First point: the scratch ends holding the support of the loaded feature and weight blocks. -/
theorem scratch_first (c : Dev nD) (i : grid0.Coords) (a1 : Memref sig .tc .vmem S10000x128 .f32) (h1 : a1.IsWhole) (a2 : Memref sig .tc .vmem S128x128 .f32) (h2 : a2.IsWhole) (a3 : Memref sig .tc .vmem S400x10000 .f32) (h3 : a3.IsWhole) (a4 : Memref sig .tc .vmem S400x128 .f32) (h4 : a4.IsWhole) (a5 : Memref sig .tc .vmem S10000x128 .bf16) (h5 : a5.IsWhole) (hc : cond0_0 i)
    (x0 : Vec F S10000x128 .f32) (x1 : Vec F S128x128 .f32) (x2 : Vec F S400x10000 .f32) :
    sout0_A_0 c i a1 h1 a2 h2 a3 h3 a4 h4 a5 h5 hc x0 x1 x2 = k0_pay1 x0 x1 := by
  unfold sout0_A_0
  rw [View.read_writes_eq_canon _ _ _ (scover0_A_0 c i a1 h1 a2 h2 a3 h3 a4 h4 a5 h5 hc x0 x1 x2)]
  unfold kernelRun0_A
  dsimp only
  sl_unfold_words
  rw [View.canon_unit_zero offsets_zero]
  simp only [View.readAt_eq_ld, h1.read_unread, h2.read_unread, View.ld_unit_zero (S := S10000x128) offsets_zero,
    View.ld_unit_zero (S := S128x128) offsets_zero]

/-- First point: the output block is computed from the adjacency rows and the support just stored. -/
theorem block_first (c : Dev nD) (i : grid0.Coords) (a1 : Memref sig .tc .vmem S10000x128 .f32) (h1 : a1.IsWhole) (a2 : Memref sig .tc .vmem S128x128 .f32) (h2 : a2.IsWhole) (a3 : Memref sig .tc .vmem S400x10000 .f32) (h3 : a3.IsWhole) (a4 : Memref sig .tc .vmem S400x128 .f32) (h4 : a4.IsWhole) (a5 : Memref sig .tc .vmem S10000x128 .bf16) (h5 : a5.IsWhole) (hc : cond0_0 i)
    (x0 : Vec F S10000x128 .f32) (x1 : Vec F S128x128 .f32) (x2 : Vec F S400x10000 .f32) :
    out0_A_3 c i a1 h1 a2 h2 a3 h3 a4 h4 a5 h5 hc x0 x1 x2 = k0_pay2 x2 (k0_pay1 x0 x1) := by
  unfold out0_A_3
  rw [View.read_writes_eq_canon _ _ _ (cover0_A_3 c i a1 h1 a2 h2 a3 h3 a4 h4 a5 h5 hc x0 x1 x2)]
  unfold kernelRun0_A
  dsimp only
  sl_unfold_words
  rw [View.canon_unit_zero offsets_zero]
  simp only [View.readAt_eq_ld, h1.read_unread, h2.read_unread, h3.read_unread,
    View.readCov_unit_zero (S := S10000x128) _ offsets_zero, View.ld_unit_zero (S := S10000x128) offsets_zero,
    View.ld_unit_zero (S := S128x128) offsets_zero, View.ld_unit_zero (S := S400x10000) offsets_zero]

/-- Later points: the output block is computed from the adjacency rows and the scratch as it was on entry. -/
theorem block_later (c : Dev nD) (i : grid0.Coords) (a1 : Memref sig .tc .vmem S10000x128 .f32) (h1 : a1.IsWhole) (a2 : Memref sig .tc .vmem S128x128 .f32) (h2 : a2.IsWhole) (a3 : Memref sig .tc .vmem S400x10000 .f32) (h3 : a3.IsWhole) (a4 : Memref sig .tc .vmem S400x128 .f32) (h4 : a4.IsWhole) (a5 : Memref sig .tc .vmem S10000x128 .bf16) (h5 : a5.IsWhole) (hc : ¬cond0_0 i)
    (x0 : Vec F S10000x128 .f32) (x1 : Vec F S128x128 .f32) (x2 : Vec F S400x10000 .f32) (xs : Vec F S10000x128 .bf16) :
    out0_B_3 c i a1 h1 a2 h2 a3 h3 a4 h4 a5 h5 hc x0 x1 x2 xs = k0_pay2 x2 xs := by
  unfold out0_B_3
  rw [View.read_writes_eq_canon _ _ _ (cover0_B_3 c i a1 h1 a2 h2 a3 h3 a4 h4 a5 h5 hc x0 x1 x2 xs)]
  unfold kernelRun0_B
  dsimp only
  sl_unfold_words
  rw [View.canon_unit_zero offsets_zero]
  simp only [View.readAt_eq_ld, h3.read_unread, h5.read_unread, View.ld_unit_zero (S := S10000x128) offsets_zero,
    View.ld_unit_zero (S := S400x10000) offsets_zero]

end Cert.GraphLayer

end
-- ==== Proof.LibPlainMatmul.lean ====
/-
  Two general facts about vector operations read at an entry, at the ideal instance (floats are extended reals).

  * A plain `M × K` by `K × N` matrix product on the matrix unit into a zero accumulator, read at entry `(r, c)`,
    is the sum over `k` of `x[r, k] · w[k, c]`: the unit's dimension numbers contract the left operand's second axis
    with the right operand's first, so re-indexing the one-axis contraction by its coordinate gives the textbook sum.
  * A column (`[a, 1]`) broadcast to `[a, b]`, read at `(p, c)`, is the column's entry at row `p`.
-/
import Idealize.ShloMosaic.PureOps.Ideal.Laws
import Idealize.ShloMosaic.Lib.ValueIdx
import Idealize.ShloMosaic.Lib.Pipeline.Value

noncomputable section

open scoped BigOperators

namespace Cert.Gnn

open Idealize.ShloMosaic Idealize.ShloMosaic.ValueIdx

/-- The left operand's row coordinate is the result's row coordinate. -/
theorem plain_lhs_row (M K N : Nat) (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- The right operand's column coordinate is the result's column coordinate. -/
theorem plain_rhs_col (M K N : Nat) (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- A plain matrix product into a zero accumulator, read at an entry, is the sum over the contracted index of the
    operands' products. -/
theorem plain_matmul_apply {φ₁ φ₂ : FTy} (M K N : Nat) (prec : Option ContractPrecision)
    (x : FVec Ideal ⟨2, ![M, K]⟩ φ₁) (w : FVec Ideal ⟨2, ![K, N]⟩ φ₂) (j : (⟨2, ![M, N]⟩ : Shape).Idx) :
    FloatOps.matmul (DotDims.plain M K N) prec x w (constant ⟨2, ![M, N]⟩ .f32 0x00000000#32) j
      = ∑ k : Fin K, x (ix2 (j 0) k) * w (ix2 k (j 1)) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact plain_lhs_row M K N _ _
      | ⟨1, _⟩ => exact ((DotDims.plain M K N).lhsIdx_val_of_single rfl _ _).trans hk)
  have er : (DotDims.plain M K N).rhsIdx j ((contrEquiv1 (DotDims.plain M K N) K rfl rfl).symm k) = ix2 k (j 1) :=
    funext fun a => Fin.ext (by
      match a with
      | ⟨0, _⟩ => exact ((DotDims.plain M K N).rhsIdx_val_of_single rfl _ _).trans hk
      | ⟨1, _⟩ => exact plain_rhs_col M K N _ _)
  rw [el, er]
  rfl

/-- A column broadcast over a row axis: an `[a, 1]` array broadcast to `[a, b]` reads, at `(p, c)`, the column's
    entry at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Gnn

end
-- ==== Proof.GraphSpec.lean ====
/-
  The graph layer as one function of its three arrays, over the extended reals.

  With `feat` a 10000 × 128 array of node features, `w` a 128 × 128 weight matrix and `adj` a dense 10000 × 10000
  adjacency matrix, the layer is

      support[k, q]   = ∑ l, feat[k, l] · w[l, q]
      aggregate[r, q] = ∑ k, adj[r, k] · support[k, q]
      layer[r, q]     = leaky (aggregate[r, q])

  where `leaky a` is `a` when `a ≥ 0` and `c · a` otherwise, `c` the single-precision number nearest 0.2 (the word
  `0x3E4CCCCD`); both programs hold that same word, so its value is never needed.
-/
import Idealize.ShloMosaic.PureOps.Ideal.Laws
import Idealize.ShloMosaic.Lib.ValueIdx

noncomputable section

open scoped BigOperators

namespace Cert.GraphLayer

open Idealize.ShloMosaic Idealize.ShloMosaic.ValueIdx

/-- The leaky rectifier: the argument where it is at least zero, the slope times the argument elsewhere. -/
def leaky (a : EReal) : EReal :=
  Scalar.select (FloatOps.cmpf (F := Ideal) (φ := .f32) .oge a (Ideal.ofBits .f32 0x00000000#32)) a
    (Ideal.ofBits .f32 0x3E4CCCCD#32 * a)

/-- The features times the weights, entry `(k, q)`. -/
def support (feat : (⟨2, ![10000, 128]⟩ : Shape).Idx → EReal) (w : (⟨2, ![128, 128]⟩ : Shape).Idx → EReal)
    (k : Fin 10000) (q : Fin 128) : EReal :=
  ∑ l : Fin 128, feat (ix2 k l) * w (ix2 l q)

/-- The support as an array. -/
def supportArr (feat : (⟨2, ![10000, 128]⟩ : Shape).Idx → EReal) (w : (⟨2, ![128, 128]⟩ : Shape).Idx → EReal) :
    (⟨2, ![10000, 128]⟩ : Shape).Idx → EReal :=
  fun i => support feat w (i 0) (i 1)

/-- The adjacency matrix times the support, entry `(r, q)`. -/
def aggregate (adj : (⟨2, ![10000, 10000]⟩ : Shape).Idx → EReal) (feat : (⟨2, ![10000, 128]⟩ : Shape).Idx → EReal)
    (w : (⟨2, ![128, 128]⟩ : Shape).Idx → EReal) (r : Fin 10000) (q : Fin 128) : EReal :=
  ∑ k : Fin 10000, adj (ix2 r k) * support feat w k q

/-- The layer's output array. -/
def layer (feat : (⟨2, ![10000, 128]⟩ : Shape).Idx → EReal) (adj : (⟨2, ![10000, 10000]⟩ : Shape).Idx → EReal)
    (w : (⟨2, ![128, 128]⟩ : Shape).Idx → EReal) : (⟨2, ![10000, 128]⟩ : Shape).Idx → EReal :=
  fun i => leaky (aggregate adj feat w (i 0) (i 1))

end Cert.GraphLayer

end
-- ==== Proof.Payloads.lean ====
/-
  The kernel body's two stored values, read entry by entry over the extended reals.

  At the grid's first point the body stores, into the scratch it keeps for the whole grid, the product of the
  features and the weights: entry `(k, q)` is `∑ l, feat[k, l] · w[l, q]` (the narrowing to sixteen bits is the
  identity on the extended reals). At every point it stores, into the output block, the leaky rectifier of the
  product of the point's 400 rows of the adjacency matrix with whatever the scratch holds: entry `(p, q)` is
  `leaky (∑ k, adjRows[p, k] · scratch[k, q])`.
-/
import proofs.«148690_g75763223102025_cont_9to1_m_1222_5_alg».proof.Proof.Gen.KernelIdeal.Skeleton
import proofs.«148690_g75763223102025_cont_9to1_m_1222_5_alg».proof.Proof.LibPlainMatmul
import proofs.«148690_g75763223102025_cont_9to1_m_1222_5_alg».proof.Proof.GraphSpec
import Idealize.ShloMosaic.Lib.Pipeline.Value

noncomputable section

open scoped BigOperators

namespace Cert.GraphLayer

open Idealize.ShloMosaic Idealize.ShloMosaic.ValueIdx Cert.KernelIdeal Cert.KernelIdeal.Gen

/-- The record of the support product is the plain 10000 × 128 by 128 × 128 one. -/
theorem dot_support_plain :
    dot_S10000x128_S128x128_S10000x128_1_0_0_1_n_n = DotDims.plain 10000 128 128 := rfl

/-- The record of the aggregation product is the plain 400 × 10000 by 10000 × 128 one. -/
theorem dot_aggregate_plain :
    dot_S400x10000_S10000x128_S400x128_1_0_0_1_n_n = DotDims.plain 400 10000 128 := rfl

/-- What the first point stores into the scratch: the support array. -/
theorem support_payload (x0 : Vec Ideal S10000x128 .f32) (x1 : Vec Ideal S128x128 .f32) :
    k0_pay1 (F := Ideal) x0 x1 = supportArr x0 x1 := by
  funext i
  unfold k0_pay1
  rw [shapeCast_self, dot_support_plain]
  exact Cert.Gnn.plain_matmul_apply (φ₁ := .f32) (φ₂ := .f32) 10000 128 128 none x0 x1 i

/-- What every point stores into its output block, at entry `(p, q)`. -/
theorem block_payload (x2 : Vec Ideal S400x10000 .f32) (xs : Vec Ideal S10000x128 .bf16) (p : Fin 400) (q : Fin 128) :
    k0_pay2 (F := Ideal) x2 xs (ix2 p q) = leaky (∑ k : Fin 10000, x2 (ix2 p k) * xs (ix2 k q)) := by
  unfold k0_pay2
  rw [dot_aggregate_plain]
  have h : matmul (F := Ideal) (φ₁ := .bf16) (φ₂ := .bf16) (DotDims.plain 400 10000 128) none
      (truncf .bf16 x2 bitsLt_bf16_f32) xs (constant S400x128 .f32 0x00000000#32) (ix2 p q)
        = ∑ k : Fin 10000, x2 (ix2 p k) * xs (ix2 k q) :=
    Cert.Gnn.plain_matmul_apply (φ₁ := .bf16) (φ₂ := .bf16) 400 10000 128 none (truncf .bf16 x2 bitsLt_bf16_f32) xs (ix2 p q)
  simp only [select_apply, cmpf_apply, mulf_apply, broadcast_apply]
  rw [h]
  rfl

end Cert.GraphLayer

end
-- ==== Proof.KernelLayer.lean ====
/-
  The kernel's result array is the layer of its three argument arrays.

  The grid has 25 points. At point `t` the kernel sees the whole feature array, the whole weight array and rows
  `400 t … 400 t + 399` of the adjacency matrix, and writes rows `400 t … 400 t + 399` of the result. The scratch is
  filled with the support at point 0 and never written again, so after every point it holds the support of the whole
  feature and weight arrays (induction on the point). Hence the block written at point `t`, at entry `(p, q)`, is
  `leaky (∑ k, adj[400 t + p, k] · support[k, q])`, which is entry `(400 t + p, q)` of the layer; the 25 blocks tile
  the result, so the result is the layer.
-/
import proofs.«148690_g75763223102025_cont_9to1_m_1222_5_alg».proof.Proof.Gen.KernelIdeal.Value
import proofs.«148690_g75763223102025_cont_9to1_m_1222_5_alg».proof.Proof.BodyPieces
import proofs.«148690_g75763223102025_cont_9to1_m_1222_5_alg».proof.Proof.Payloads
import proofs.«148690_g75763223102025_cont_9to1_m_1222_5_alg».proof.Proof.GraphSpec
import Idealize.ShloMosaic.Lib.Pipeline.Value
import Idealize.ShloMosaic.Lib.ValueIdx

noncomputable section

open scoped BigOperators

namespace Cert.GraphLayer

open Idealize.ShloMosaic Idealize.ShloMosaic.TcCoe Idealize.SL.Sem Idealize.ShloMosaic.ValueIdx
open Cert.KernelIdeal Cert.KernelIdeal.Gen
open Idealize.ShloMosaic.Pipeline (Dat)

section AnyValues

variable {F : FTy → Type} [FloatOps F]
variable (m : (ℓ : Loc nD τ sig) → Buf (Elt F) ℓ) (ρ : Dev nD → PrngReg)

/-- The three argument arrays as the kernel finds them, and the three input blocks at a point, at their literal
    shapes. -/
abbrev featArr (c : Dev nD) : Vec F S10000x128 .f32 := V m c main_arg0
abbrev adjArr (c : Dev nD) : Vec F S10000x10000 .f32 := V m c main_arg1
abbrev wtArr (c : Dev nD) : Vec F S128x128 .f32 := V m c main_arg2
abbrev featBlk (c : Dev nD) (t : Fin cfg0.N) : Vec F S10000x128 .f32 := iblk m c 0 t
abbrev wtBlk (c : Dev nD) (t : Fin cfg0.N) : Vec F S128x128 .f32 := iblk m c 1 t
abbrev adjBlk (c : Dev nD) (t : Fin cfg0.N) : Vec F S400x10000 .f32 := iblk m c 2 t

/-- The block indices over the grid: the feature and weight windows stay at block (0, 0); the adjacency and result
    windows are at block (t, 0). -/
theorem block_indices : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- The feature block at any point is the whole feature array. -/
theorem featBlk_eq (c : Dev nD) (t : Fin cfg0.N) : featBlk m c t = featArr m c := by
  obtain ⟨e0, e1, -⟩ := block_indices t
  funext y
  unfold featBlk iblk
  rw [View.read_apply]
  show V m c main_arg0 _ = V m c main_arg0 y
  congr 1
  funext a
  apply Fin.ext
  match a with
  | ⟨0, _⟩ => show win0_0.index t (0 : Fin 2) * 10000 + 1 * (y 0).val = (y 0).val; rw [e0]; omega
  | ⟨1, _⟩ => show win0_0.index t (1 : Fin 2) * 128 + 1 * (y 1).val = (y 1).val; rw [e1]; omega

/-- The weight block at any point is the whole weight array. -/
theorem wtBlk_eq (c : Dev nD) (t : Fin cfg0.N) : wtBlk m c t = wtArr m c := by
  obtain ⟨-, -, e0, e1, -⟩ := block_indices t
  funext y
  unfold wtBlk iblk
  rw [View.read_apply]
  show V m c main_arg2 _ = V m c main_arg2 y
  congr 1
  funext a
  apply Fin.ext
  match a with
  | ⟨0, _⟩ => show win0_1.index t (0 : Fin 2) * 128 + 1 * (y 0).val = (y 0).val; rw [e0]; omega
  | ⟨1, _⟩ => show win0_1.index t (1 : Fin 2) * 128 + 1 * (y 1).val = (y 1).val; rw [e1]; omega

/-- The adjacency block at point `t` holds rows `400 t …` of the adjacency matrix. -/
theorem adjBlk_apply (c : Dev nD) (t : Fin cfg0.N) (y : S400x10000.Idx) (i : S10000x10000.Idx)
    (h0 : (i 0).val = 400 * t.val + (y 0).val) (h1 : (i 1).val = (y 1).val) :
    adjBlk m c t y = adjArr m c i := by
  obtain ⟨-, -, -, -, e0, e1, -⟩ := block_indices t
  unfold adjBlk iblk
  rw [View.read_apply]
  show V m c main_arg1 _ = V m c main_arg1 i
  congr 1
  funext a
  apply Fin.ext
  match a with
  | ⟨0, _⟩ => show win0_2.index t (0 : Fin 2) * 400 + 1 * (y 0).val = (i 0).val; rw [e0, h0]; omega
  | ⟨1, _⟩ => show win0_2.index t (1 : Fin 2) * 10000 + 1 * (y 1).val = (i 1).val; rw [e1, h1]; omega

/-- After every point the scratch holds the support of the whole feature and weight arrays: point 0 stores it,
    the later points leave it. -/
theorem scratch_after (c : Dev nD) : ∀ (n : ℕ) (hn : n < cfg0.N),
    (outsAt0 m c n hn).2 = k0_pay1 (featArr m c) (wtArr m c)
  | 0, hn => by
    rw [outsAt0_A m c ⟨0, hn⟩ rfl]
    dsimp only
    rw [scratch_first, ← featBlk_eq m c ⟨0, hn⟩, ← wtBlk_eq m c ⟨0, hn⟩]
  | n + 1, hn => by
    have hN : cfg0.N = 25 := N_0
    have hB : ¬(⟨n + 1, hn⟩ : Fin cfg0.N).val % 25 = 0 := by dsimp only; omega
    rw [outsAt0_B m c ⟨n + 1, hn⟩ hB]
    dsimp only
    unfold sout0_B_0
    exact scratch_after c n _

/-- The output block after point `t`: computed from the point's adjacency rows and that support. -/
theorem block_after (c : Dev nD) (t : Fin cfg0.N) :
    (outsAt0 m c t.val t.isLt).1 = k0_pay2 (adjBlk m c t) (k0_pay1 (featArr m c) (wtArr m c)) := by
  by_cases h0 : t.val % 25 = 0
  · rw [outsAt0_A m c t h0]
    dsimp only
    rw [block_first, ← featBlk_eq m c t, ← wtBlk_eq m c t]
  · rw [outsAt0_B m c t h0]
    dsimp only
    rw [block_later, scratch_after m c (t.val - 1) _]

end AnyValues

section ExtendedReals

variable (m : (ℓ : Loc nD τ sig) → Buf (Elt Ideal) ℓ) (ρ : Dev nD → PrngReg)

/-- One entry of a block, over plain arrays: if `rows` holds rows `400 T …` of `adj`, then entry `y` of the block
    computed from `rows` and the support of `feat` and `w` is entry `(400 T + y₀, y₁)` of the layer. -/
theorem block_entry (feat : Vec Ideal S10000x128 .f32) (adj : Vec Ideal S10000x10000 .f32) (w : Vec Ideal S128x128 .f32)
    (rows : Vec Ideal S400x10000 .f32) (T : ℕ)
    (hrows : ∀ (y : S400x10000.Idx) (i : S10000x10000.Idx),
      (i 0).val = 400 * T + (y 0).val → (i 1).val = (y 1).val → rows y = adj i)
    (y : S400x128.Idx) (i : S10000x128.Idx) (h0 : (i 0).val = 400 * T + (y 0).val) (h1 : (i 1).val = (y 1).val) :
    k0_pay2 (F := Ideal) rows (k0_pay1 (F := Ideal) feat w) y = layer feat adj w i := by
  obtain ⟨p, q, rfl⟩ : ∃ (p : Fin 400) (q : Fin 128), y = ix2 p q := ⟨y 0, y 1, eq_ix2 y⟩
  rw [block_payload, support_payload]
  unfold layer aggregate
  have hq : i 1 = q := Fin.ext h1
  rw [hq]
  refine congrArg leaky (Finset.sum_congr rfl fun k _ => ?_)
  rw [hrows (ix2 p k) (ix2 (i 0) k) h0 rfl]
  rfl

/-- What point `t` writes back is block `t` of the layer of the argument arrays. -/
theorem flushed_layer (c : Dev nD) (t : Fin cfg0.N) :
    (dats m 0 c).flushed 3 t
      = ((cfg0.win 3).blk t).view.read (Elt Ideal) (layer (featArr m c) (adjArr m c) (wtArr m c)) := by
  obtain ⟨-, -, -, -, -, -, e0, e1⟩ := block_indices t
  rw [Cert.KernelIdeal.Value.flushed3, block_after]
  funext y
  show k0_pay2 (F := Ideal) (adjBlk m c t) (k0_pay1 (F := Ideal) (featArr m c) (wtArr m c)) y
    = layer (featArr m c) (adjArr m c) (wtArr m c) (((cfg0.win 3).blk t).view.emb y)
  refine block_entry (featArr m c) (adjArr m c) (wtArr m c) (adjBlk m c t) t.val (adjBlk_apply m c t) y _ ?_ ?_
  · show win0_3.index t (0 : Fin 2) * 400 + 1 * (y 0).val = 400 * t.val + (y 0).val
    rw [e0]; omega
  · show win0_3.index t (1 : Fin 2) * 128 + 1 * (y 1).val = (y 1).val
    rw [e1]; omega

/-- An entry of the result array is in point `t`'s block iff each coordinate is in the block's range. -/
theorem mem_block (t : Fin cfg0.N) (i : S10000x128.Idx) :
    i ∈ ((cfg0.win 3).blk t).view.set ↔ ∀ a : Fin 2, win0_3.index t a * S400x128.size a ≤ (i a).val
      ∧ (i a).val < win0_3.index t a * S400x128.size a + S400x128.size a := by
  show i ∈ ((View.whole main_v0).slice (win0_3.rect t)).set ↔ _
  rw [View.set_slice_whole, Rect.mem_set_unit]
  exact Iff.rfl

/-- Row `r` of the result lies in the block of point `r / 400`: the 25 blocks tile the array. -/
theorem blocks_cover (i : S10000x128.Idx) :
    ∃ t : Fin cfg0.N, (cfg0.win 3).flush t = true ∧ i ∈ ((cfg0.win 3).blk t).view.set := by
  have hN : cfg0.N = 25 := N_0
  have hi0 : (i 0).val < 10000 := (i 0).isLt
  have hi1 : (i 1).val < 128 := (i 1).isLt
  obtain ⟨t, ht⟩ : ∃ t : Fin cfg0.N, t.val = (i 0).val / 400 := ⟨⟨(i 0).val / 400, by rw [hN]; omega⟩, rfl⟩
  obtain ⟨-, -, -, -, -, -, e0, e1⟩ := block_indices t
  refine ⟨t, flush0_3 t, ?_⟩
  rw [mem_block]
  intro a
  match a with
  | ⟨0, _⟩ =>
    show win0_3.index t (0 : Fin 2) * 400 ≤ (i 0).val ∧ (i 0).val < win0_3.index t (0 : Fin 2) * 400 + 400
    rw [e0, ht]; omega
  | ⟨1, _⟩ =>
    show win0_3.index t (1 : Fin 2) * 128 ≤ (i 1).val ∧ (i 1).val < win0_3.index t (1 : Fin 2) * 128 + 128
    rw [e1]; omega

/-- The result array after the run is the layer of the argument arrays. -/
theorem result_layer (c : Dev nD) :
    (dats m 0 c).arrAt 3 cfg0.N = layer (featArr m c) (adjArr m c) (wtArr m c) :=
  (dats m 0 c).arrAt_eq_of_cover 3 _ (fun t _ => flushed_layer m c t) blocks_cover

/-- The kernel's run: every weakly fair execution ends with the result array at the layer of the launch contents of
    the three arguments, which are unchanged. -/
theorem run_layer : θ_run defs (onTc (τ := τ) (main (F := Ideal))) ⟨m, fun _ => 0, ρ⟩ fun r => ∀ c : Dev nD,
      r.2.mem ((c : Thread nD τ).loc main_v0)
        = layer (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (result_layer m c), (h c).2⟩)
    (Cert.KernelIdeal.Value.run_blocks m ρ)

end ExtendedReals

end Cert.GraphLayer

end
-- ==== Proof.RefLayer.lean ====
/-
  The reference program computes the layer.

  Its nine operations are two matrix products, a comparison with zero, a product with the slope and a selection.
  Read at an entry `(r, q)`: the second product is `∑ k, adj[r, k] · (∑ l, feat[k, l] · w[l, q])`, and the last three
  operations apply the leaky rectifier to it.
-/
import proofs.«148690_g75763223102025_cont_9to1_m_1222_5_alg».proof.Proof.Gen.ReferenceIdeal.Read
import proofs.«148690_g75763223102025_cont_9to1_m_1222_5_alg».proof.Proof.GraphSpec

noncomputable section

open scoped BigOperators

namespace Cert.GraphLayer

open Idealize.ShloMosaic Idealize.ShloMosaic.ValueIdx Cert.ReferenceIdeal Cert.ReferenceIdeal.Read

/-- The reference's first product at `(k, q)` is the support. -/
theorem ref_support (x0 : (⟨S10000x128, .f32⟩ : BufTy).Contents (Elt Ideal)) (x2 : (⟨S128x128, .f32⟩ : BufTy).Contents (Elt Ideal))
    (k : Fin 10000) (q : Fin 128) : val_main_v0 (F := Ideal) x0 x2 (ix2 k q) = support x0 x2 k q := by
  rw [val_main_v0_apply]
  refine Finset.sum_congr rfl fun l _ => ?_
  have el : lidx_main_v0 (ix2 k q) l = ix2 k l :=
    funext fun a => Fin.ext (by match a with | ⟨0, _⟩ => rfl | ⟨1, _⟩ => rfl)
  have er : ridx_main_v0 (ix2 k q) l = ix2 l q :=
    funext fun a => Fin.ext (by match a with | ⟨0, _⟩ => rfl | ⟨1, _⟩ => rfl)
  rw [el, er]

/-- The reference's second product at `(r, q)` is the aggregate. -/
theorem ref_aggregate (x0 : (⟨S10000x128, .f32⟩ : BufTy).Contents (Elt Ideal)) (x1 : (⟨S10000x10000, .f32⟩ : BufTy).Contents (Elt Ideal))
    (x2 : (⟨S128x128, .f32⟩ : BufTy).Contents (Elt Ideal)) (r : Fin 10000) (q : Fin 128) :
    val_main_v1 (F := Ideal) x0 x1 x2 (ix2 r q) = aggregate x1 x0 x2 r q := by
  rw [val_main_v1_apply]
  refine Finset.sum_congr rfl fun k _ => ?_
  have el : lidx_main_v1 (ix2 r q) k = ix2 r k :=
    funext fun a => Fin.ext (by match a with | ⟨0, _⟩ => rfl | ⟨1, _⟩ => rfl)
  have er : ridx_main_v1 (ix2 r q) k = ix2 k q :=
    funext fun a => Fin.ext (by match a with | ⟨0, _⟩ => rfl | ⟨1, _⟩ => rfl)
  rw [el, er, ref_support]

/-- The reference's result is the layer of its three arguments. -/
theorem ref_layer (x0 : (⟨S10000x128, .f32⟩ : BufTy).Contents (Elt Ideal)) (x1 : (⟨S10000x10000, .f32⟩ : BufTy).Contents (Elt Ideal))
    (x2 : (⟨S128x128, .f32⟩ : BufTy).Contents (Elt Ideal)) :
    val_main_v6 (F := Ideal) x0 x1 x2 = layer x0 x1 x2 := by
  funext i
  obtain ⟨r, q, rfl⟩ : ∃ (r : Fin 10000) (q : Fin 128), i = ix2 r q := ⟨i 0, i 1, eq_ix2 i⟩
  rw [val_main_v6_apply, val_main_v3_apply, val_main_v5_apply, val_main_v4_apply, val_main_cst_0_apply,
    val_main_v2_apply, val_main_cst_apply, ref_aggregate]
  rfl

end Cert.GraphLayer

end
-- ==== Proof.lean ====
/-
  A graph layer: `leaky (adj · (feat · w))` with `feat` of shape 10000 × 128, `adj` dense 10000 × 10000 and `w`
  128 × 128, the leaky rectifier of slope (the single-precision number nearest) 0.2.

  The kernel walks 25 blocks of 400 rows of `adj`. At the first block it computes the support `feat · w` into a
  scratch it keeps (narrowed to sixteen bits, which is the identity over the extended reals), and at every block it
  multiplies the block's rows with the kept support and applies the rectifier. The reference computes the two
  products whole and applies the same rectifier with the same slope word. Over the extended reals both are, at entry
  `(r, q)`, `leaky (∑ k, adj[r, k] · ∑ l, feat[k, l] · w[l, q])`: the same sums in the same arrangement, so no law
  of arithmetic beyond reading both sides at an entry is used, and the precondition is not needed.

  The frames of the two kernel programs are the generated ones; the reference's frame is its generated run with the
  result dropped. The idealization rewrote nothing, so it is preserved trivially.
-/
import proofs.«148690_g75763223102025_cont_9to1_m_1222_5_alg».proof.Defs
import proofs.«148690_g75763223102025_cont_9to1_m_1222_5_alg».proof.Proof.Gen.Kernel
import proofs.«148690_g75763223102025_cont_9to1_m_1222_5_alg».proof.Proof.Gen.Kernel.Skeleton
import proofs.«148690_g75763223102025_cont_9to1_m_1222_5_alg».proof.Proof.Gen.Kernel.Launch
import proofs.«148690_g75763223102025_cont_9to1_m_1222_5_alg».proof.Proof.Gen.Kernel.Points
import proofs.«148690_g75763223102025_cont_9to1_m_1222_5_alg».proof.Proof.Gen.Kernel.Frame
import proofs.«148690_g75763223102025_cont_9to1_m_1222_5_alg».proof.Proof.Gen.KernelIdeal
import proofs.«148690_g75763223102025_cont_9to1_m_1222_5_alg».proof.Proof.Gen.KernelIdeal.Skeleton
import proofs.«148690_g75763223102025_cont_9to1_m_1222_5_alg».proof.Proof.Gen.KernelIdeal.Launch
import proofs.«148690_g75763223102025_cont_9to1_m_1222_5_alg».proof.Proof.Gen.KernelIdeal.Points
import proofs.«148690_g75763223102025_cont_9to1_m_1222_5_alg».proof.Proof.Gen.KernelIdeal.Frame
import proofs.«148690_g75763223102025_cont_9to1_m_1222_5_alg».proof.Proof.Gen.ReferenceIdeal
import proofs.«148690_g75763223102025_cont_9to1_m_1222_5_alg».proof.Proof.Gen.Pre_finite_inputs
import proofs.«148690_g75763223102025_cont_9to1_m_1222_5_alg».proof.Proof.Gen.KernelIdeal.Value
import proofs.«148690_g75763223102025_cont_9to1_m_1222_5_alg».proof.Proof.Gen.ReferenceIdeal.Run
import proofs.«148690_g75763223102025_cont_9to1_m_1222_5_alg».proof.Proof.Gen.ReferenceIdeal.Read
import proofs.«148690_g75763223102025_cont_9to1_m_1222_5_alg».proof.Proof.KernelLayer
import proofs.«148690_g75763223102025_cont_9to1_m_1222_5_alg».proof.Proof.RefLayer
import Idealize.ShloMosaic.Adequacy
import Idealize.ShloMosaic.Init

noncomputable section

namespace Cert.Proof

open Idealize.ShloMosaic Idealize.SL.Sem Cert.Kernel

/-- The word-level kernel runs and leaves its arguments as they were. -/
theorem frame_kernel : Cert.frame_Kernel := fun m ρ _ => Cert.Kernel.Gen.frame m ρ

/-- So does the kernel read over the extended reals. -/
theorem frame_kernel_ideal : Cert.frame_KernelIdeal :=
  fun m ρ _ => Cert.KernelIdeal.Gen.frame m ρ

/-- The reference runs and leaves its arguments as they were: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From arguments that agree, both programs end with the layer of those arguments in their result arrays. -/
theorem algebraic : Cert.algebraic_KernelIdeal_ReferenceIdeal := by
  intro m ρ m' ρ' _ hagree
  refine ⟨_, Cert.GraphLayer.run_layer m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, Cert.GraphLayer.ref_layer, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
